-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S64x40 : Shape := ⟨2, ![64, 40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_
  bcast_S_S64x40 : S_.BroadcastsInDim S64x40 (![] : Fin 0 → Fin S64x40.rank)
  reducesTo_S64x40_S_d0_1 : S64x40.ReducesTo [0, 1] S_

variable [Facts]

def fn_part3 {F : FTy → Type} [FloatOps F] (main_arg12 : FVec F S64x40 .f32) (main_arg13 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S64x40 .f32 := Host.absf main_arg12
  let main_cst_20 : FVec F S_ .f32 := constant S_ .f32 0x7F800000#32
  let main_v55 : FVec F S64x40 .f32 := broadcastInDim S64x40 ![] bcast_S_S64x40 main_cst_20
  let main_v56 : IVec S64x40 1 := cmpf .olt main_v54 main_v55
  let main_c_21 : IVec S_ 1 := constantI S_ 1 1#1
  let main_v57 : IVec S_ 1 := (fun x v => Host.reduce IntOp.andi x v reducesTo_S64x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S32x32 .f32) (main_arg9 : FVec F S32 .f32) (main_arg10 : FVec F S32x40 .f32) (main_arg11 : FVec F S40 .f32) (main_arg12 : FVec F S64x40 .f32) (main_arg13 : FVec F S40 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x40 .f32 := Host.absf main_arg10
  let main_cst_16 : FVec F S_ .f32 := constant S_ .f32 0x7F800000#32
  let main_v45 : FVec F S32x40 .f32 := broadcastInDim S32x40 ![] bcast_S_S32x40 main_cst_16
  let main_v46 : IVec S32x40 1 := cmpf .olt main_v44 main_v45
  let main_c_17 : IVec S_ 1 := constantI S_ 1 1#1
  let main_v47 : IVec S_ 1 := (fun x v => Host.reduce IntOp.andi x v reducesTo_S32x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_arg13 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x40 .f32) (main_arg11 : FVec F S40 .f32) (main_arg12 : FVec F S64x40 .f32) (main_arg13 : FVec F S40 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x32 .f32) (main_arg3 : FVec F S32 .f32) (main_arg4 : FVec F S64x32 .f32) (main_arg5 : FVec F S32 .f32) (main_arg6 : FVec F S32x32 .f32) (main_arg7 : FVec F S32 .f32) (main_arg8 : FVec F S32x32 .f32) (main_arg9 : FVec F S32 .f32) (main_arg10 : FVec F S32x40 .f32) (main_arg11 : FVec F S40 .f32) (main_arg12 : FVec F S64x40 .f32) (main_arg13 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S64x40 : Shape := ⟨2, ![64, 40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 69
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x40, .f32⟩
  | .hbm, ⟨11, _⟩ => ⟨S40, .f32⟩
  | .hbm, ⟨12, _⟩ => ⟨S64x40, .f32⟩
  | .hbm, ⟨13, _⟩ => ⟨S40, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x32, .f32⟩
  | .hbm, ⟨47, _⟩ => ⟨S1x32, .f32⟩
  | .hbm, ⟨48, _⟩ => ⟨S100000x32, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S1x32, .f32⟩
  | .hbm, ⟨66, _⟩ => ⟨S100000x32, .f32⟩
  | .hbm, ⟨67, _⟩ => ⟨S1x40, .f32⟩
  | .hbm, ⟨68, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S1x32, .f32⟩
  | .local _ .vmem, ⟨6, _⟩ => ⟨S64x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S40_S1x40 : S40.ShapeCasts S1x40
  inb_S32x40_S32x40_0_0 : ∀ a, (![0, 0] : Fin 2 → Nat) a + S32x40.size a ≤ S32x40.size a
  h_S32x40 : 0 < S32x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x40.size a ≤ S32x40.size a
  hwx2_1 : ∀ i : grid2.Coords, EltTy.bits .f32 = 32 ∨ (Rect.block (s := S32x40) S32x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S32x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S40 : Shape := ⟨1, ![40]⟩
abbrev S64x40 : Shape := ⟨2, ![64, 40]⟩
abbrev S1x1600000 : Shape := ⟨2, ![1, 1600000]⟩
abbrev S1600000 : Shape := ⟨1, ![1600000]⟩
abbrev S100000x40 : Shape := ⟨2, ![100000, 40]⟩
abbrev S1x40 : Shape := ⟨2, ![1, 40]⟩
abbrev S100000x32 : Shape := ⟨2, ![100000, 32]⟩
abbrev S1x32 : Shape := ⟨2, ![1, 32]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1600000x32 : Shape := ⟨2, ![1600000, 32]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x40, .f32⟩
  | .hbm, ⟨11, _⟩ => ⟨S40, .f32⟩
  | .hbm, ⟨12, _⟩ => ⟨S64x40, .f32⟩
  | .hbm, ⟨13, _⟩ => ⟨S40, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x40, .f32⟩
  | .hbm, ⟨19, _⟩ => ⟨S1x40, .f32⟩
  | .hbm, ⟨20, _⟩ => ⟨S100000x40, .f32⟩
  | .hbm, ⟨21, _⟩ => ⟨S100000x40, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x32, .f32⟩
  | .hbm, ⟨52, _⟩ => ⟨S1x32, .f32⟩
  | .hbm, ⟨53, _⟩ => ⟨S100000x32, .f32⟩
  | .hbm, ⟨54, _⟩ => ⟨S100000x32, .f32⟩
  | .hbm, ⟨55, _⟩ => ⟨S100000x32, .f32⟩
  | .hbm, ⟨56, _⟩ => ⟨S_, .f32⟩
  | .hbm, ⟨57, _⟩ => ⟨S100000x32, .f32⟩
  | .hbm, ⟨58, _⟩ => ⟨S100000x32, .f32⟩
  | .hbm, ⟨59, _⟩ => ⟨S100000x32, .f32⟩
  | .hbm, ⟨60, _⟩ => ⟨S1x32, .f32⟩
  | .hbm, ⟨61, _⟩ => ⟨S100000x32, .f32⟩
  | .hbm, ⟨62, _⟩ => ⟨S100000x32, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x32, .f32⟩
  | .hbm, ⟨72, _⟩ => ⟨S_, .f32⟩
  | .hbm, ⟨73, _⟩ => ⟨S100000x32, .f32⟩
  | .hbm, ⟨74, _⟩ => ⟨S1600000x1, .i32⟩
  | .hbm, ⟨75, _⟩ => ⟨S100000x32, .f32⟩
  | .hbm, ⟨76, _⟩ => ⟨S_, .f32⟩
  | .hbm, ⟨77, _⟩ => ⟨S1600000, .f32⟩
  | .hbm, ⟨78, _⟩ => ⟨S_, .f32⟩
  | .hbm, ⟨79, _⟩ => ⟨S100000, .f32⟩
  | .hbm, ⟨80, _⟩ => ⟨S1600000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x32, .f32⟩
  | .hbm, ⟨87, _⟩ => ⟨S100000x32, .f32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x40, .f32⟩
  | .hbm, ⟨97, _⟩ => ⟨S1x40, .f32⟩
  | .hbm, ⟨98, _⟩ => ⟨S100000x40, .f32⟩
  | .hbm, ⟨99, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_cst : Ref sig .tc := ⟨.hbm, 56, rfl⟩
abbrev main_call0_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_v41 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call1_cst : Ref sig .tc := ⟨.hbm, 93, rfl⟩
abbrev main_call1_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  dot_S100000x64_S64x40_S100000x40_1_0_0_1_n_n_wf : DotDims.WF S100000x64 S64x40 S100000x40 [1] [0] [0] [1] [] []
  dot_S100000x64_S64x32_S100000x32_1_0_0_1_n_n_wf : DotDims.WF S100000x64 S64x32 S100000x32 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x40_S100000x40_1_0_0_1_n_n_wf : DotDims.WF S100000x32 S32x40 S100000x40 [1] [0] [0] [1] [] []

variable [Facts₀]

def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Pay.lean ====
/-
  What each kernel body stores, read at an entry at the ideal values.

  A fused layer's body casts its four matrix operands to bf16 (the identity on the extended reals), multiplies the
  node block by the self weights and the neighbour block by the neighbour weights, each product into a zero
  accumulator, adds each bias row down the rows, adds the two terms and clips below at zero. At row p and column q
  of the block this is
      max ( (Σ_c x(p,c)·Ws(c,q) + bs(0,q)) + (Σ_c nb(p,c)·Wn(c,q) + bn(0,q)) , 0 ).
  The projection body is one product plus its bias row: Σ_c x(p,c)·W(c,q) + b(0,q).
-/
import proofs.«171314_j89601607729378_1_alg».proof.Proof.Gen.KernelIdeal.Skeleton
import proofs.«171314_j89601607729378_1_alg».proof.Proof.LibPlainMatmul
import Idealize.ShloMosaic.Lib.Pipeline.Value
import Idealize.ShloMosaic.Lib.ValueLayout

open scoped BigOperators

noncomputable section

namespace Cert.KernelIdeal.Pay

open Cert.KernelIdeal Cert.KernelIdeal.Gen Idealize.ShloMosaic Idealize.ShloMosaic.ValueIdx

/-- The first layer's stored block at (p, q). -/
theorem pay0_apply (x0 x1 : FVec Ideal S5000x64 .f32) (w0 w1 : FVec Ideal S64x32 .f32) (b0 b1 : FVec Ideal S1x32 .f32)
    (p : Fin 5000) (q : Fin 32) :
    k0_pay1 (F := Ideal) x0 x1 w0 w1 b0 b1 (ix2 p q)
      = max (((∑ c : Fin 64, x0 (ix2 p c) * w0 (ix2 c q)) + b0 (ix2 0 q))
          + ((∑ c : Fin 64, x1 (ix2 p c) * w1 (ix2 c q)) + b1 (ix2 0 q))) 0 := by
  show max ((matmul dot_S5000x64_S64x32_S5000x32_1_0_0_1_n_n none (truncf .bf16 x0 bitsLt_bf16_f32) (truncf .bf16 w0 bitsLt_bf16_f32) (constant S5000x32 .f32 0x00000000#32) (ix2 p q)
        + broadcastTo S5000x32 (shapeCast S1x32 b0 shapeCasts_S1x32_S1x32) broadcasts_S1x32_S5000x32 (ix2 p q))
      + (matmul dot_S5000x64_S64x32_S5000x32_1_0_0_1_n_n none (truncf .bf16 (shapeCast S5000x64 x1 shapeCasts_S5000x64_S5000x64) bitsLt_bf16_f32) (truncf .bf16 w1 bitsLt_bf16_f32) (constant S5000x32 .f32 0x00000000#32) (ix2 p q)
        + broadcastTo S5000x32 (shapeCast S1x32 b1 shapeCasts_S1x32_S1x32) broadcasts_S1x32_S5000x32 (ix2 p q)))
      (Scalar.ofBits (F := Ideal) .f32 0x00000000#32) = _
  rw [PlainMatmul.matmul_zero_apply dot_S5000x64_S64x32_S5000x32_1_0_0_1_n_n dot_S5000x64_S64x32_S5000x32_1_0_0_1_n_n_wf rfl,
    PlainMatmul.matmul_zero_apply dot_S5000x64_S64x32_S5000x32_1_0_0_1_n_n dot_S5000x64_S64x32_S5000x32_1_0_0_1_n_n_wf rfl,
    broadcastTo_1b_ab_apply, broadcastTo_1b_ab_apply, shapeCast_self, shapeCast_self, shapeCast_self, Ideal.ofBits_def, Ideal.ofBits_zero_f32]
  rfl

/-- The second layer's stored block at (p, q). -/
theorem pay1_apply (x0 x1 : FVec Ideal S5000x32 .f32) (w0 w1 : FVec Ideal S32x32 .f32) (b0 b1 : FVec Ideal S1x32 .f32)
    (p : Fin 5000) (q : Fin 32) :
    k1_pay1 (F := Ideal) x0 x1 w0 w1 b0 b1 (ix2 p q)
      = max (((∑ c : Fin 32, x0 (ix2 p c) * w0 (ix2 c q)) + b0 (ix2 0 q))
          + ((∑ c : Fin 32, x1 (ix2 p c) * w1 (ix2 c q)) + b1 (ix2 0 q))) 0 := by
  show max ((matmul dot_S5000x32_S32x32_S5000x32_1_0_0_1_n_n none (truncf .bf16 (shapeCast S5000x32 x0 shapeCasts_S5000x32_S5000x32) bitsLt_bf16_f32) (truncf .bf16 w0 bitsLt_bf16_f32) (constant S5000x32 .f32 0x00000000#32) (ix2 p q)
        + broadcastTo S5000x32 (shapeCast S1x32 b0 shapeCasts_S1x32_S1x32) broadcasts_S1x32_S5000x32 (ix2 p q))
      + (matmul dot_S5000x32_S32x32_S5000x32_1_0_0_1_n_n none (truncf .bf16 (shapeCast S5000x32 x1 shapeCasts_S5000x32_S5000x32) bitsLt_bf16_f32) (truncf .bf16 w1 bitsLt_bf16_f32) (constant S5000x32 .f32 0x00000000#32) (ix2 p q)
        + broadcastTo S5000x32 (shapeCast S1x32 b1 shapeCasts_S1x32_S1x32) broadcasts_S1x32_S5000x32 (ix2 p q)))
      (Scalar.ofBits (F := Ideal) .f32 0x00000000#32) = _
  rw [PlainMatmul.matmul_zero_apply dot_S5000x32_S32x32_S5000x32_1_0_0_1_n_n dot_S5000x32_S32x32_S5000x32_1_0_0_1_n_n_wf rfl,
    PlainMatmul.matmul_zero_apply dot_S5000x32_S32x32_S5000x32_1_0_0_1_n_n dot_S5000x32_S32x32_S5000x32_1_0_0_1_n_n_wf rfl,
    broadcastTo_1b_ab_apply, broadcastTo_1b_ab_apply, shapeCast_self, shapeCast_self, shapeCast_self, shapeCast_self, Ideal.ofBits_def, Ideal.ofBits_zero_f32]
  rfl

/-- The projection's stored block at (p, q). -/
theorem pay2_apply (x0 : FVec Ideal S5000x32 .f32) (w0 : FVec Ideal S32x40 .f32) (b0 : FVec Ideal S1x40 .f32)
    (p : Fin 5000) (q : Fin 40) :
    k2_pay1 (F := Ideal) x0 w0 b0 (ix2 p q)
      = (∑ c : Fin 32, x0 (ix2 p c) * w0 (ix2 c q)) + b0 (ix2 0 q) := by
  show matmul dot_S5000x32_S32x40_S5000x40_1_0_0_1_n_n none (truncf .bf16 (shapeCast S5000x32 x0 shapeCasts_S5000x32_S5000x32) bitsLt_bf16_f32) (truncf .bf16 w0 bitsLt_bf16_f32) (constant S5000x40 .f32 0x00000000#32) (ix2 p q)
        + broadcastTo S5000x40 (shapeCast S1x40 b0 shapeCasts_S1x40_S1x40) broadcasts_S1x40_S5000x40 (ix2 p q) = _
  rw [PlainMatmul.matmul_zero_apply dot_S5000x32_S32x40_S5000x40_1_0_0_1_n_n dot_S5000x32_S32x40_S5000x40_1_0_0_1_n_n_wf rfl,
    broadcastTo_1b_ab_apply, shapeCast_self, shapeCast_self]
  rfl

end Cert.KernelIdeal.Pay

end
-- ==== Proof.Spec.lean ====
/-
  One graph-convolution layer and the output projection, as functions of whole arrays, entry by entry, over the
  extended reals.

  A layer takes the node features h [N, K], the neighbour means nb [N, K], two weight matrices [K, J] and two bias
  rows [1, J]; node a's new feature b is
      max ( (Σ_c h(a,c)·Ws(c,b) + bs(0,b)) + (Σ_c nb(a,c)·Wn(c,b) + bn(0,b)) , 0 ).
  The projection is Σ_c h(a,c)·W(c,b) + b(0,b).

  The neighbour mean divides a row of sums by the clipped in-degree max(cnt, 1). One program multiplies by the
  reciprocal 1 / max(cnt, 1), the other divides by max(cnt, 1); on the extended reals these agree for EVERY value
  of the sum and of cnt, because max(cnt, 1) ≥ 1 is never zero: x / y is x · y⁻¹ off zero, and 1 / y is 1 · y⁻¹.
-/
import Idealize.ShloMosaic.Lib.ValueIdx
import Idealize.ShloMosaic.PureOps.Ideal.Laws

open scoped BigOperators

noncomputable section

namespace Cert.Sage

open Idealize.ShloMosaic Idealize.ShloMosaic.ValueIdx

variable {N K J : Nat}

/-- One layer: the self term plus the neighbour term, clipped below at zero. -/
def conv (h nb : (⟨2, ![N, K]⟩ : Shape).Idx → EReal) (Ws Wn : (⟨2, ![K, J]⟩ : Shape).Idx → EReal)
    (bs bn : (⟨2, ![1, J]⟩ : Shape).Idx → EReal) : (⟨2, ![N, J]⟩ : Shape).Idx → EReal :=
  fun i => max (((∑ c : Fin K, h (ix2 (i 0) c) * Ws (ix2 c (i 1))) + bs (ix2 0 (i 1)))
    + ((∑ c : Fin K, nb (ix2 (i 0) c) * Wn (ix2 c (i 1))) + bn (ix2 0 (i 1)))) 0

theorem conv_apply (h nb : (⟨2, ![N, K]⟩ : Shape).Idx → EReal) (Ws Wn : (⟨2, ![K, J]⟩ : Shape).Idx → EReal)
    (bs bn : (⟨2, ![1, J]⟩ : Shape).Idx → EReal) (a : Fin N) (b : Fin J) :
    conv h nb Ws Wn bs bn (ix2 a b)
      = max (((∑ c : Fin K, h (ix2 a c) * Ws (ix2 c b)) + bs (ix2 0 b))
          + ((∑ c : Fin K, nb (ix2 a c) * Wn (ix2 c b)) + bn (ix2 0 b))) 0 := rfl

/-- The output projection. -/
def proj (h : (⟨2, ![N, K]⟩ : Shape).Idx → EReal) (W : (⟨2, ![K, J]⟩ : Shape).Idx → EReal)
    (b : (⟨2, ![1, J]⟩ : Shape).Idx → EReal) : (⟨2, ![N, J]⟩ : Shape).Idx → EReal :=
  fun i => (∑ c : Fin K, h (ix2 (i 0) c) * W (ix2 c (i 1))) + b (ix2 0 (i 1))

theorem proj_apply (h : (⟨2, ![N, K]⟩ : Shape).Idx → EReal) (W : (⟨2, ![K, J]⟩ : Shape).Idx → EReal)
    (b : (⟨2, ![1, J]⟩ : Shape).Idx → EReal) (a : Fin N) (q : Fin J) :
    proj h W b (ix2 a q) = (∑ c : Fin K, h (ix2 a c) * W (ix2 c q)) + b (ix2 0 q) := rfl

/-- The float pattern of one is the extended real 1. -/
theorem ofBits_one : Ideal.ofBits .f32 0x3F800000#32 = (1 : EReal) := by
  have h : ((8388608 : ℝ) : EReal) * (((2 : ℝ) ^ 23)⁻¹ : ℝ) = 1 := by
    rw [← EReal.coe_mul]; norm_num
  simpa [Ideal.ofBits, Ideal.ieee] using h

/-- Multiplying by the reciprocal of a clipped count is dividing by it, at every extended real. -/
theorem mul_recip_clip (x cnt : EReal) :
    x * Ideal.div (Ideal.ofBits .f32 0x3F800000#32) (max cnt (Ideal.ofBits .f32 0x3F800000#32))
      = Ideal.div x (max cnt (Ideal.ofBits .f32 0x3F800000#32)) := by
  rw [ofBits_one]
  have hne : max cnt (1 : EReal) ≠ 0 := ne_of_gt (lt_of_lt_of_le zero_lt_one (le_max_right cnt 1))
  unfold Ideal.div
  rw [if_neg hne, if_neg hne, one_mul]

end Cert.Sage

end
-- ==== Proof.Region0.lean ====
/-
  The first layer's output array after its pallas_call, as one function of the arrays the call finds.

  The grid has 20 points; point t reads rows 5000·t … 5000·t + 4999 of the node features and of the neighbour means,
  the two weight matrices and the two bias rows whole, and writes rows 5000·t … 5000·t + 4999 of the output. What the
  body stores at (p, q) of its block is the layer's entry (5000·t + p, q), because row p of a row block IS row
  5000·t + p of its array; the 20 row blocks cover all 100000 rows, so the array ends holding the layer everywhere.
-/
import proofs.«171314_j89601607729378_1_alg».proof.Proof.Gen.KernelIdeal.Frame
import proofs.«171314_j89601607729378_1_alg».proof.Proof.Pay
import proofs.«171314_j89601607729378_1_alg».proof.Proof.Spec

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The layer at the entry a block entry stands for: row p of row block r is row 5000·r + p. -/
theorem block_entry (X0 X1 : FVec Ideal S100000x64 .f32) (W0 W1 : FVec Ideal S64x32 .f32) (B0 B1 : FVec Ideal S1x32 .f32)
    (x0 x1 : FVec Ideal S5000x64 .f32) (r : ℕ)
    (hx0 : ∀ (p : Fin 5000) (c : Fin 64) (i : S100000x64.Idx), (i 0).val = r * 5000 + p.val → (i 1).val = c.val → x0 (ix2 p c) = X0 i)
    (hx1 : ∀ (p : Fin 5000) (c : Fin 64) (i : S100000x64.Idx), (i 0).val = r * 5000 + p.val → (i 1).val = c.val → x1 (ix2 p c) = X1 i)
    (j : S5000x32.Idx) (i : S100000x32.Idx) (hi0 : (i 0).val = r * 5000 + (j 0).val) (hi1 : (i 1).val = (j 1).val) :
    k0_pay1 (F := Ideal) x0 x1 W0 W1 B0 B1 j
      = Cert.Sage.conv (N := 100000) (K := 64) (J := 32) X0 X1 W0 W1 B0 B1 i := by
  obtain ⟨p, q, rfl⟩ : ∃ (p : Fin 5000) (q : Fin 32), j = ix2 p q := ⟨j 0, j 1, eq_ix2 j⟩
  have hq : i 1 = q := Fin.ext hi1
  rw [Pay.pay0_apply]
  show _ = max (((∑ c : Fin 64, X0 (ix2 (i 0) c) * W0 (ix2 c (i 1))) + B0 (ix2 0 (i 1)))
    + ((∑ c : Fin 64, X1 (ix2 (i 0) c) * W1 (ix2 c (i 1))) + B1 (ix2 0 (i 1)))) 0
  rw [hq]
  have e0 : ∀ c : Fin 64, x0 (ix2 p c) = X0 (ix2 (i 0) c) := fun c => hx0 p c _ hi0 rfl
  have e1 : ∀ c : Fin 64, x1 (ix2 p c) = X1 (ix2 (i 0) c) := fun c => hx1 p c _ hi0 rfl
  simp only [e0, e1]

variable (V : (c : Dev nD) → (b : Ref sig .tc) → Buf (Elt Ideal) ((c : Thread nD τ).loc b))

/-- The printed index maps, decided over the grid: the row-tiled windows sit at block row t, the resident ones at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A resident window's block is its whole array. -/
theorem iblk_w2 (c : Dev nD) (t : Fin cfg0.N) : iblk0 V c 2 t = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 32 + 1 * (y 1).val = (y 1).val; omega

theorem iblk_w3 (c : Dev nD) (t : Fin cfg0.N) : iblk0 V c 3 t = V c main_v25 := by
  obtain ⟨-, -, -, -, -, -, e0, e1, -⟩ := idx_facts t
  funext y
  show V c main_v25 (((cfg0.win 3).blk t).view.emb y) = V c main_v25 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 32 + 1 * (y 1).val = (y 1).val; omega

theorem iblk_w4 (c : Dev nD) (t : Fin cfg0.N) : iblk0 V c 4 t = V c main_arg4 := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 32 + 1 * (y 1).val = (y 1).val; omega

theorem iblk_w5 (c : Dev nD) (t : Fin cfg0.N) : iblk0 V c 5 t = V c main_v26 := by
  obtain ⟨-, -, -, -, -, -, -, -, -, -, e0, e1, -⟩ := idx_facts t
  funext y
  show V c main_v26 (((cfg0.win 5).blk t).view.emb y) = V c main_v26 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- A row-tiled window's block at (p, c) is its array at row 5000·t + p. -/
theorem iblk_w0 (c : Dev nD) (t : Fin cfg0.N) (p : Fin 5000) (k : Fin 64) (i : S100000x64.Idx)
    (h0 : (i 0).val = t.val * 5000 + p.val) (h1 : (i 1).val = k.val) :
    iblk0 V c 0 t (ix2 p k) = V c main_arg0 i := by
  obtain ⟨e0, e1, -⟩ := idx_facts t
  show V c main_arg0 (((cfg0.win 0).blk t).view.emb (ix2 p k)) = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 64 + 1 * k.val = (i 1).val; omega

theorem iblk_w1 (c : Dev nD) (t : Fin cfg0.N) (p : Fin 5000) (k : Fin 64) (i : S100000x64.Idx)
    (h0 : (i 0).val = t.val * 5000 + p.val) (h1 : (i 1).val = k.val) :
    iblk0 V c 1 t (ix2 p k) = V c main_v24 i := by
  obtain ⟨-, -, e0, e1, -⟩ := idx_facts t
  show V c main_v24 (((cfg0.win 1).blk t).view.emb (ix2 p k)) = V c main_v24 i
  refine congrArg _ (funext fun a => Fin.ext ?_)
  match a with
  | ⟨0, _⟩ => show win0_1.index t (0 : Fin 2) * 5000 + 1 * p.val = (i 0).val; omega
  | ⟨1, _⟩ => show win0_1.index t (1 : Fin 2) * 64 + 1 * k.val = (i 1).val; omega

/-- What point t writes back is block t of the layer of the arrays the call finds. -/
theorem flushed_eq (c : Dev nD) (t : Fin cfg0.N) :
    (dat0 V c).flushed 6 t = ((cfg0.win 6).blk t).view.read (Elt Ideal)
      (Cert.Sage.conv (N := 100000) (K := 64) (J := 32) (V c main_arg0) (V c main_v24) (V c main_arg2) (V c main_arg4) (V c main_v25) (V c main_v26)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x32) hz, View.ld_unit_zero (S := S1x32) hz]
  rw [iblk_w2, iblk_w3, iblk_w4, iblk_w5]
  obtain ⟨-, -, -, -, -, -, -, -, -, -, -, -, e0, e1⟩ := idx_facts t
  funext j
  refine block_entry (V c main_arg0) (V c main_v24) (V c main_arg2) (V c main_arg4) (V c main_v25) (V c main_v26)
    (iblk0 V c 0 t) (iblk0 V c 1 t) t.val (fun p k i h0 h1 => iblk_w0 V c t p k i h0 h1) (fun p k i h0 h1 => iblk_w1 V c t p k i h0 h1)
    j (((cfg0.win 6).blk t).view.emb j) ?_ ?_
  · show win0_6.index t (0 : Fin 2) * 5000 + 1 * (j 0).val = t.val * 5000 + (j 0).val; omega
  · show win0_6.index t (1 : Fin 2) * 32 + 1 * (j 1).val = (j 1).val; omega

/-- An index of the array is in point t's block iff each coordinate is in the block's range on its axis. -/
theorem mem_blk (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v27).slice (win0_6.rect t)).set ↔ _
  rw [View.set_slice_whole, Rect.mem_set_unit]
  exact Iff.rfl

/-- Every row lies in the block of the point numbered by the row's quotient by 5000. -/
theorem cover (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_6 _, ?_⟩
  obtain ⟨-, -, -, -, -, -, -, -, -, -, -, -, e0, e1⟩ := idx_facts ⟨(i 0).val / 5000, by rw [hN]; omega⟩
  rw [mem_blk]
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 32 ≤ (i 1).val ∧ (i 1).val < win0_6.index _ (1 : Fin 2) * 32 + 32
    rw [e1]; omega

/-- The output array after the call: the layer of the arrays the call finds. -/
theorem final (c : Dev nD) :
    (dat0 V c).arrAt 6 cfg0.N
      = Cert.Sage.conv (N := 100000) (K := 64) (J := 32) (V c main_arg0) (V c main_v24) (V c main_arg2) (V c main_arg4) (V c main_v25) (V c main_v26) :=
  (dat0 V c).arrAt_eq_of_cover 6 _ (fun t _ => flushed_eq V c t) cover

end Cert.KernelIdeal.Region0

end
-- ==== Proof.Region2.lean ====
/-
  The logits array after the third pallas_call, as one function of the arrays the call finds.

  The grid has 20 points; point t reads rows 5000·t … 5000·t + 4999 of the second layer's output, the projection matrix
  and its bias row whole, and writes rows 5000·t … 5000·t + 4999 of the logits. What the body stores at (p, q) of its
  block is the projection's entry (5000·t + p, q); the 20 row blocks cover all 100000 rows.
-/
import proofs.«171314_j89601607729378_1_alg».proof.Proof.Gen.KernelIdeal.Frame
import proofs.«171314_j89601607729378_1_alg».proof.Proof.Pay
import proofs.«171314_j89601607729378_1_alg».proof.Proof.Spec

set_option maxRecDepth 16384

open scoped BigOperators

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The projection at the entry a block entry stands for: row p of row block r is row 5000·r + p. -/
theorem block_entry (X0 : FVec Ideal S100000x32 .f32) (W0 : FVec Ideal S32x40 .f32) (B0 : FVec Ideal S1x40 .f32)
    (x0 : FVec Ideal S5000x32 .f32) (r : ℕ)
    (hx0 : ∀ (p : Fin 5000) (c : Fin 32) (i : S100000x32.Idx), (i 0).val = r * 5000 + p.val → (i 1).val = c.val → x0 (ix2 p c) = X0 i)
    (j : S5000x40.Idx) (i : S100000x40.Idx) (hi0 : (i 0).val = r * 5000 + (j 0).val) (hi1 : (i 1).val = (j 1).val) :
    k2_pay1 (F := Ideal) x0 W0 B0 j = Cert.Sage.proj (N := 100000) (K := 32) (J := 40) X0 W0 B0 i := by
  obtain ⟨p, q, rfl⟩ : ∃ (p : Fin 5000) (q : Fin 40), j = ix2 p q := ⟨j 0, j 1, eq_ix2 j⟩
  have hq : i 1 = q := Fin.ext hi1
  rw [Pay.pay2_apply]
  show _ = (∑ c : Fin 32, X0 (ix2 (i 0) c) * W0 (ix2 c (i 1))) + B0 (ix2 0 (i 1))
  rw [hq]
  have e0 : ∀ c : Fin 32, x0 (ix2 p c) = X0 (ix2 (i 0) c) := fun c => hx0 p c _ hi0 rfl
  simp only [e0]

variable (V : (c : Dev nD) → (b : Ref sig .tc) → Buf (Elt Ideal) ((c : Thread nD τ).loc b))

/-- The printed index maps, decided over the grid: the row-tiled windows sit at block row t, the resident ones at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A resident window's block is its whole array. -/
theorem iblk_w1 (c : Dev nD) (t : Fin cfg2.N) : iblk2 V c 1 t = V c main_arg10 := by
  obtain ⟨-, -, e0, e1, -⟩ := idx_facts t
  funext y
  show V c main_arg10 (((cfg2.win 1).blk t).view.emb y) = V c main_arg10 y
  refine congrArg _ (funext fun a => Fin.ext ?_)
  match a with
  | ⟨0, _⟩ => show win2_1.index t (0 : Fin 2) * 32 + 1 * (y 0).val = (y 0).val; omega
  | ⟨1, _⟩ => show win2_1.index t (1 : Fin 2) * 40 + 1 * (y 1).val = (y 1).val; omega

theorem iblk_w2 (c : Dev nD) (t : Fin cfg2.N) : iblk2 V c 2 t = V c main_v43 := by
  obtain ⟨-, -, -, -, e0, e1, -⟩ := idx_facts t
  funext y
  show V c main_v43 (((cfg2.win 2).blk t).view.emb y) = V c main_v43 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 40 + 1 * (y 1).val = (y 1).val; omega

/-- The row-tiled window's block at (p, k) is its array at row 5000·t + p. -/
theorem iblk_w0 (c : Dev nD) (t : Fin cfg2.N) (p : Fin 5000) (k : Fin 32) (i : S100000x32.Idx)
    (h0 : (i 0).val = t.val * 5000 + p.val) (h1 : (i 1).val = k.val) :
    iblk2 V c 0 t (ix2 p k) = V c main_v42 i := by
  obtain ⟨e0, e1, -⟩ := idx_facts t
  show V c main_v42 (((cfg2.win 0).blk t).view.emb (ix2 p k)) = V c main_v42 i
  refine congrArg _ (funext fun a => Fin.ext ?_)
  match a with
  | ⟨0, _⟩ => show win2_0.index t (0 : Fin 2) * 5000 + 1 * p.val = (i 0).val; omega
  | ⟨1, _⟩ => show win2_0.index t (1 : Fin 2) * 32 + 1 * k.val = (i 1).val; omega

/-- What point t writes back is block t of the projection of the arrays the call finds. -/
theorem flushed_eq (c : Dev nD) (t : Fin cfg2.N) :
    (dat2 V c).flushed 3 t = ((cfg2.win 3).blk t).view.read (Elt Ideal)
      (Cert.Sage.proj (N := 100000) (K := 32) (J := 40) (V c main_v42) (V c main_arg10) (V c main_v43)) := by
  show (cfg2.win 3).cut (grid2.coords t) ((dat2 V c).after 3 t) = _
  rw [after2_3]
  unfold out2_3
  rw [View.canon_unit_zero hz]
  simp only [View.ld_unit_zero (S := S5000x32) hz, View.ld_unit_zero (S := S32x40) hz, View.ld_unit_zero (S := S1x40) hz]
  rw [iblk_w1, iblk_w2]
  obtain ⟨-, -, -, -, -, -, e0, e1⟩ := idx_facts t
  funext j
  refine block_entry (V c main_v42) (V c main_arg10) (V c main_v43)
    (iblk2 V c 0 t) t.val (fun p k i h0 h1 => iblk_w0 V c t p k i h0 h1)
    j (((cfg2.win 3).blk t).view.emb j) ?_ ?_
  · show win2_3.index t (0 : Fin 2) * 5000 + 1 * (j 0).val = t.val * 5000 + (j 0).val; omega
  · show win2_3.index t (1 : Fin 2) * 40 + 1 * (j 1).val = (j 1).val; omega

/-- An index of the array is in point t's block iff each coordinate is in the block's range on its axis. -/
theorem mem_blk (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v44).slice (win2_3.rect t)).set ↔ _
  rw [View.set_slice_whole, Rect.mem_set_unit]
  exact Iff.rfl

/-- Every row lies in the block of the point numbered by the row's quotient by 5000. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_3 _, ?_⟩
  obtain ⟨-, -, -, -, -, -, e0, e1⟩ := idx_facts ⟨(i 0).val / 5000, by rw [hN]; omega⟩
  rw [mem_blk]
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 40 ≤ (i 1).val ∧ (i 1).val < win2_3.index _ (1 : Fin 2) * 40 + 40
    rw [e1]; omega

/-- The logits array after the call: the projection of the arrays the call finds. -/
theorem final (c : Dev nD) :
    (dat2 V c).arrAt 3 cfg2.N
      = Cert.Sage.proj (N := 100000) (K := 32) (J := 40) (V c main_v42) (V c main_arg10) (V c main_v43) :=
  (dat2 V c).arrAt_eq_of_cover 3 _ (fun t _ => flushed_eq V c t) cover

end Cert.KernelIdeal.Region2

end
-- ==== Proof.KTerms.lean ====
/-
  The kernel program's host-side values, named.

  From the edge list e [2, E] the program takes the source ids (row 0) and the destination ids (row 1); the clipped
  in-degree's reciprocal 1 / max(cnt, 1), with cnt the scatter-add of ones at the destination ids, as a column; and
  the neighbour mean of a feature array: the rows gathered at the source ids (a negative id wrapped by the row count),
  scatter-added at the destination ids, times that column broadcast along the features.

  Over these and the layer and projection of the specification, the three arrays the pallas_calls write:
  h1 = layer(x, mean(x)), h2 = layer(h1, mean(h1)), logits = projection(h2).
-/
import proofs.«171314_j89601607729378_1_alg».proof.Proof.Gen.KernelIdeal
import proofs.«171314_j89601607729378_1_alg».proof.Proof.Spec

noncomputable section

namespace Cert.KernelIdeal.KT

open Cert.KernelIdeal Cert.KernelIdeal.Gen Idealize.ShloMosaic

variable {F : FTy → Type} [FloatOps F]

/-- Row 0 of the edge list: the source ids. -/
def srcIds (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: the destination ids. -/
def dstIds (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The in-degree: ones scatter-added at the destination ids. -/
def inDeg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- 1 / max(in-degree, 1), as a column. -/
def invDeg (dst : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (inDeg dst) (broadcastInDim S100000 ![] bcast_S_S100000 (constant S_ .f32 0x3F800000#32))))

/-- The gather's start indices: a negative source id wrapped by the row count, as a column. -/
def srcCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sums of a 64-feature array. -/
def agg64 (x : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (srcCol src))

/-- The neighbour sums of a 32-feature array. -/
def agg32 (h : (⟨S100000x32, .f32⟩ : BufTy).Contents (Elt F)) (src dst : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 h (srcCol src))

/-- The neighbour mean of a 64-feature array: the sums times the reciprocal column. -/
def nbr64 (x : (⟨S100000x64, .f32⟩ : BufTy).Contents (Elt F)) (src dst : (⟨S1600000, .i32⟩ : BufTy).Contents (Elt F))
    (inv : (⟨S100000x1, .f32⟩ : BufTy).Contents (Elt F)) : (⟨S100000x64, .f32⟩ : BufTy).Contents (Elt F) :=
  mulf (agg64 x src dst) (broadcastInDim S100000x64 ![0, 1] bcast_S100000x1_S100000x64_0_1 inv)

/-- The neighbour mean of a 32-feature array. -/
def nbr32 (h : (⟨S100000x32, .f32⟩ : BufTy).Contents (Elt F)) (src dst : (⟨S1600000, .i32⟩ : BufTy).Contents (Elt F))
    (inv : (⟨S100000x1, .f32⟩ : BufTy).Contents (Elt F)) : (⟨S100000x32, .f32⟩ : BufTy).Contents (Elt F) :=
  mulf (agg32 h src dst) (broadcastInDim S100000x32 ![0, 1] bcast_S100000x1_S100000x32_0_1 inv)

/-- A bias [32] as a row [1, 32]. -/
def row32 (b : (⟨S32, .f32⟩ : BufTy).Contents (Elt F)) : (⟨S1x32, .f32⟩ : BufTy).Contents (Elt F) :=
  shapeCast S1x32 b shapeCasts_S32_S1x32

/-- A bias [40] as a row [1, 40]. -/
def row40 (b : (⟨S40, .f32⟩ : BufTy).Contents (Elt F)) : (⟨S1x40, .f32⟩ : BufTy).Contents (Elt F) :=
  shapeCast S1x40 b shapeCasts_S40_S1x40

/-! ## The three arrays the pallas_calls write, at the ideal values -/

/-- The first layer's output. -/
def h1 (a0 : (⟨S100000x64, .f32⟩ : BufTy).Contents (Elt Ideal)) (a1 : (⟨S2x1600000, .i32⟩ : BufTy).Contents (Elt Ideal))
    (a2 : (⟨S64x32, .f32⟩ : BufTy).Contents (Elt Ideal)) (a3 : (⟨S32, .f32⟩ : BufTy).Contents (Elt Ideal))
    (a4 : (⟨S64x32, .f32⟩ : BufTy).Contents (Elt Ideal)) (a5 : (⟨S32, .f32⟩ : BufTy).Contents (Elt Ideal)) :
    (⟨S100000x32, .f32⟩ : BufTy).Contents (Elt Ideal) :=
  Cert.Sage.conv (N := 100000) (K := 64) (J := 32) a0 (nbr64 a0 (srcIds a1) (dstIds a1) (invDeg (dstIds a1))) a2 a4 (row32 a3) (row32 a5)

/-- The second layer's output, from the first's. -/
def h2 (g : (⟨S100000x32, .f32⟩ : BufTy).Contents (Elt Ideal)) (a1 : (⟨S2x1600000, .i32⟩ : BufTy).Contents (Elt Ideal))
    (a6 : (⟨S32x32, .f32⟩ : BufTy).Contents (Elt Ideal)) (a7 : (⟨S32, .f32⟩ : BufTy).Contents (Elt Ideal))
    (a8 : (⟨S32x32, .f32⟩ : BufTy).Contents (Elt Ideal)) (a9 : (⟨S32, .f32⟩ : BufTy).Contents (Elt Ideal)) :
    (⟨S100000x32, .f32⟩ : BufTy).Contents (Elt Ideal) :=
  Cert.Sage.conv (N := 100000) (K := 32) (J := 32) g (nbr32 g (srcIds a1) (dstIds a1) (invDeg (dstIds a1))) a6 a8 (row32 a7) (row32 a9)

/-- The logits, from the second layer's output. -/
def logits (g : (⟨S100000x32, .f32⟩ : BufTy).Contents (Elt Ideal))
    (a10 : (⟨S32x40, .f32⟩ : BufTy).Contents (Elt Ideal)) (a11 : (⟨S40, .f32⟩ : BufTy).Contents (Elt Ideal)) :
    (⟨S100000x40, .f32⟩ : BufTy).Contents (Elt Ideal) :=
  Cert.Sage.proj (N := 100000) (K := 32) (J := 40) g a10 (row40 a11)

end Cert.KernelIdeal.KT

end
-- ==== Proof.KHost.lean ====
/-
  The host operations between the pallas_calls, read as values: from ANY contents W of the buffers, each stretch
  leaves its results at the named host-side values of what it read, and leaves every buffer it does not write as it
  was.
-/
import proofs.«171314_j89601607729378_1_alg».proof.Proof.Gen.KernelIdeal.Launch
import proofs.«171314_j89601607729378_1_alg».proof.Proof.KTerms
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## Before the first call -/

/-- The neighbour mean of the input features. -/
theorem h0_v24 : StableHlo.after (hostOps0 (F := F)) W (Proc.devRef .tc main_v24)
    = KT.nbr64 (W (Proc.devRef .tc main_arg0)) (KT.srcIds (W (Proc.devRef .tc main_arg1))) (KT.dstIds (W (Proc.devRef .tc main_arg1))) (KT.invDeg (KT.dstIds (W (Proc.devRef .tc main_arg1)))) := by
  after_results_simp; rfl

theorem h0_v25 : StableHlo.after (hostOps0 (F := F)) W (Proc.devRef .tc main_v25) = KT.row32 (W (Proc.devRef .tc main_arg3)) := by
  after_results_simp; rfl

theorem h0_v26 : StableHlo.after (hostOps0 (F := F)) W (Proc.devRef .tc main_v26) = KT.row32 (W (Proc.devRef .tc main_arg5)) := by
  after_results_simp; rfl

theorem h0_v1 : StableHlo.after (hostOps0 (F := F)) W (Proc.devRef .tc main_v1) = KT.srcIds (W (Proc.devRef .tc main_arg1)) := by
  after_results_simp; rfl

theorem h0_v3 : StableHlo.after (hostOps0 (F := F)) W (Proc.devRef .tc main_v3) = KT.dstIds (W (Proc.devRef .tc main_arg1)) := by
  after_results_simp; rfl

theorem h0_v12 : StableHlo.after (hostOps0 (F := F)) W (Proc.devRef .tc main_v12) = KT.invDeg (KT.dstIds (W (Proc.devRef .tc main_arg1))) := by
  after_results_simp; rfl

theorem h0_arg0 : StableHlo.after (hostOps0 (F := F)) W (Proc.devRef .tc main_arg0) = W (Proc.devRef .tc main_arg0) := by
  after_results_simp

theorem h0_arg2 : StableHlo.after (hostOps0 (F := F)) W (Proc.devRef .tc main_arg2) = W (Proc.devRef .tc main_arg2) := by
  after_results_simp

theorem h0_arg4 : StableHlo.after (hostOps0 (F := F)) W (Proc.devRef .tc main_arg4) = W (Proc.devRef .tc main_arg4) := by
  after_results_simp

theorem h0_arg6 : StableHlo.after (hostOps0 (F := F)) W (Proc.devRef .tc main_arg6) = W (Proc.devRef .tc main_arg6) := by
  after_results_simp

theorem h0_arg7 : StableHlo.after (hostOps0 (F := F)) W (Proc.devRef .tc main_arg7) = W (Proc.devRef .tc main_arg7) := by
  after_results_simp

theorem h0_arg8 : StableHlo.after (hostOps0 (F := F)) W (Proc.devRef .tc main_arg8) = W (Proc.devRef .tc main_arg8) := by
  after_results_simp

theorem h0_arg9 : StableHlo.after (hostOps0 (F := F)) W (Proc.devRef .tc main_arg9) = W (Proc.devRef .tc main_arg9) := by
  after_results_simp

theorem h0_arg10 : StableHlo.after (hostOps0 (F := F)) W (Proc.devRef .tc main_arg10) = W (Proc.devRef .tc main_arg10) := by
  after_results_simp

theorem h0_arg11 : StableHlo.after (hostOps0 (F := F)) W (Proc.devRef .tc main_arg11) = W (Proc.devRef .tc main_arg11) := by
  after_results_simp

/-! ## Between the first and the second call -/

/-- The neighbour mean of the first layer's output. -/
theorem h1_v39 : StableHlo.after (hostOps1 (F := F)) W (Proc.devRef .tc main_v39)
    = KT.nbr32 (W (Proc.devRef .tc main_v27)) (W (Proc.devRef .tc main_v1)) (W (Proc.devRef .tc main_v3)) (W (Proc.devRef .tc main_v12)) := by
  after_results_simp; rfl

theorem h1_v40 : StableHlo.after (hostOps1 (F := F)) W (Proc.devRef .tc main_v40) = KT.row32 (W (Proc.devRef .tc main_arg7)) := by
  after_results_simp; rfl

theorem h1_v41 : StableHlo.after (hostOps1 (F := F)) W (Proc.devRef .tc main_v41) = KT.row32 (W (Proc.devRef .tc main_arg9)) := by
  after_results_simp; rfl

theorem h1_v27 : StableHlo.after (hostOps1 (F := F)) W (Proc.devRef .tc main_v27) = W (Proc.devRef .tc main_v27) := by
  after_results_simp

theorem h1_arg6 : StableHlo.after (hostOps1 (F := F)) W (Proc.devRef .tc main_arg6) = W (Proc.devRef .tc main_arg6) := by
  after_results_simp

theorem h1_arg8 : StableHlo.after (hostOps1 (F := F)) W (Proc.devRef .tc main_arg8) = W (Proc.devRef .tc main_arg8) := by
  after_results_simp

theorem h1_arg10 : StableHlo.after (hostOps1 (F := F)) W (Proc.devRef .tc main_arg10) = W (Proc.devRef .tc main_arg10) := by
  after_results_simp

theorem h1_arg11 : StableHlo.after (hostOps1 (F := F)) W (Proc.devRef .tc main_arg11) = W (Proc.devRef .tc main_arg11) := by
  after_results_simp

/-! ## Between the second and the third call -/

theorem h2_v43 : StableHlo.after (hostOps2 (F := F)) W (Proc.devRef .tc main_v43) = KT.row40 (W (Proc.devRef .tc main_arg11)) := by
  after_results_simp; rfl

theorem h2_v42 : StableHlo.after (hostOps2 (F := F)) W (Proc.devRef .tc main_v42) = W (Proc.devRef .tc main_v42) := by
  after_results_simp

theorem h2_arg10 : StableHlo.after (hostOps2 (F := F)) W (Proc.devRef .tc main_arg10) = W (Proc.devRef .tc main_arg10) := by
  after_results_simp

end Cert.KernelIdeal.KHost

end
-- ==== Proof.KFold.lean ====
/-
  The kernel program's two results as functions of its arguments, read off the run's segment boundaries.

  The contents of the TensorCore's buffers are followed from the launch memory: the first stretch of host operations
  leaves the neighbour mean of x, the bias rows and the id vectors; the first pallas_call writes the first layer
  h1 = layer(x, mean(x)) over those; the second stretch leaves the neighbour mean of h1 and two more bias rows; the
  second call writes h2 = layer(h1, mean(h1)); the third stretch reshapes the last bias; the third call writes the
  logits, the projection of h2, and leaves h2 where it was. A buffer that a stretch or a call does not write keeps its
  contents across it.
-/
import proofs.«171314_j89601607729378_1_alg».proof.Proof.Gen.KernelIdeal.Frame
import proofs.«171314_j89601607729378_1_alg».proof.Proof.Region0
import proofs.«171314_j89601607729378_1_alg».proof.Proof.Region1
import proofs.«171314_j89601607729378_1_alg».proof.Proof.Region2
import proofs.«171314_j89601607729378_1_alg».proof.Proof.KHost

set_option maxRecDepth 16384

noncomputable section

namespace Cert.KernelIdeal.KFold

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## After the first stretch of host operations -/

theorem V1_arg0 : V1 m ρ c main_arg0 = m ((c : Thread nD τ).loc main_arg0) := KHost.h0_arg0 (W0 m ρ c)
theorem V1_arg2 : V1 m ρ c main_arg2 = m ((c : Thread nD τ).loc main_arg2) := KHost.h0_arg2 (W0 m ρ c)
theorem V1_arg4 : V1 m ρ c main_arg4 = m ((c : Thread nD τ).loc main_arg4) := KHost.h0_arg4 (W0 m ρ c)
theorem V1_arg6 : V1 m ρ c main_arg6 = m ((c : Thread nD τ).loc main_arg6) := KHost.h0_arg6 (W0 m ρ c)
theorem V1_arg7 : V1 m ρ c main_arg7 = m ((c : Thread nD τ).loc main_arg7) := KHost.h0_arg7 (W0 m ρ c)
theorem V1_arg8 : V1 m ρ c main_arg8 = m ((c : Thread nD τ).loc main_arg8) := KHost.h0_arg8 (W0 m ρ c)
theorem V1_arg9 : V1 m ρ c main_arg9 = m ((c : Thread nD τ).loc main_arg9) := KHost.h0_arg9 (W0 m ρ c)
theorem V1_arg10 : V1 m ρ c main_arg10 = m ((c : Thread nD τ).loc main_arg10) := KHost.h0_arg10 (W0 m ρ c)
theorem V1_arg11 : V1 m ρ c main_arg11 = m ((c : Thread nD τ).loc main_arg11) := KHost.h0_arg11 (W0 m ρ c)
theorem V1_v24 : V1 m ρ c main_v24 = KT.nbr64 (m ((c : Thread nD τ).loc main_arg0)) (KT.srcIds (m ((c : Thread nD τ).loc main_arg1))) (KT.dstIds (m ((c : Thread nD τ).loc main_arg1))) (KT.invDeg (KT.dstIds (m ((c : Thread nD τ).loc main_arg1)))) := KHost.h0_v24 (W0 m ρ c)
theorem V1_v25 : V1 m ρ c main_v25 = KT.row32 (m ((c : Thread nD τ).loc main_arg3)) := KHost.h0_v25 (W0 m ρ c)
theorem V1_v26 : V1 m ρ c main_v26 = KT.row32 (m ((c : Thread nD τ).loc main_arg5)) := KHost.h0_v26 (W0 m ρ c)
theorem V1_v1 : V1 m ρ c main_v1 = KT.srcIds (m ((c : Thread nD τ).loc main_arg1)) := KHost.h0_v1 (W0 m ρ c)
theorem V1_v3 : V1 m ρ c main_v3 = KT.dstIds (m ((c : Thread nD τ).loc main_arg1)) := KHost.h0_v3 (W0 m ρ c)
theorem V1_v12 : V1 m ρ c main_v12 = KT.invDeg (KT.dstIds (m ((c : Thread nD τ).loc main_arg1))) := KHost.h0_v12 (W0 m ρ c)

/-! ## After the first call -/

/-- The first layer's output. -/
theorem V2_v27 : V2 m ρ c main_v27 = (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 6).trans ?_
  rw [Region0.final (V1 m ρ) c, V1_arg0, V1_v24, V1_arg2, V1_arg4, V1_v25, V1_v26]
  rfl

theorem V2_v1 : V2 m ρ c main_v1 = V1 m ρ c main_v1 := W2_of_ne m ρ c main_v1 (by decide)
theorem V2_v3 : V2 m ρ c main_v3 = V1 m ρ c main_v3 := W2_of_ne m ρ c main_v3 (by decide)
theorem V2_v12 : V2 m ρ c main_v12 = V1 m ρ c main_v12 := W2_of_ne m ρ c main_v12 (by decide)
theorem V2_arg6 : V2 m ρ c main_arg6 = V1 m ρ c main_arg6 := W2_of_ne m ρ c main_arg6 (by decide)
theorem V2_arg7 : V2 m ρ c main_arg7 = V1 m ρ c main_arg7 := W2_of_ne m ρ c main_arg7 (by decide)
theorem V2_arg8 : V2 m ρ c main_arg8 = V1 m ρ c main_arg8 := W2_of_ne m ρ c main_arg8 (by decide)
theorem V2_arg9 : V2 m ρ c main_arg9 = V1 m ρ c main_arg9 := W2_of_ne m ρ c main_arg9 (by decide)
theorem V2_arg10 : V2 m ρ c main_arg10 = V1 m ρ c main_arg10 := W2_of_ne m ρ c main_arg10 (by decide)
theorem V2_arg11 : V2 m ρ c main_arg11 = V1 m ρ c main_arg11 := W2_of_ne m ρ c main_arg11 (by decide)

/-! ## After the second stretch of host operations -/

/-- The neighbour mean of the first layer's output. -/
theorem V3_v39 : V3 m ρ c main_v39 = KT.nbr32 (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (KT.srcIds (m ((c : Thread nD τ).loc main_arg1))) (KT.dstIds (m ((c : Thread nD τ).loc main_arg1))) (KT.invDeg (KT.dstIds (m ((c : Thread nD τ).loc main_arg1)))) := by
  refine (KHost.h1_v39 (W2 m ρ c)).trans ?_
  rw [show W2 m ρ c (Proc.devRef .tc main_v27) = _ from V2_v27 m ρ c, show W2 m ρ c (Proc.devRef .tc main_v1) = _ from (V2_v1 m ρ c).trans (V1_v1 m ρ c),
    show W2 m ρ c (Proc.devRef .tc main_v3) = _ from (V2_v3 m ρ c).trans (V1_v3 m ρ c), show W2 m ρ c (Proc.devRef .tc main_v12) = _ from (V2_v12 m ρ c).trans (V1_v12 m ρ c)]
theorem V3_v40 : V3 m ρ c main_v40 = KT.row32 (m ((c : Thread nD τ).loc main_arg7)) := by
  refine (KHost.h1_v40 (W2 m ρ c)).trans ?_
  rw [show W2 m ρ c (Proc.devRef .tc main_arg7) = _ from (V2_arg7 m ρ c).trans (V1_arg7 m ρ c)]
theorem V3_v41 : V3 m ρ c main_v41 = KT.row32 (m ((c : Thread nD τ).loc main_arg9)) := by
  refine (KHost.h1_v41 (W2 m ρ c)).trans ?_
  rw [show W2 m ρ c (Proc.devRef .tc main_arg9) = _ from (V2_arg9 m ρ c).trans (V1_arg9 m ρ c)]
theorem V3_v27 : V3 m ρ c main_v27 = (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := (KHost.h1_v27 (W2 m ρ c)).trans (V2_v27 m ρ c)
theorem V3_arg6 : V3 m ρ c main_arg6 = m ((c : Thread nD τ).loc main_arg6) := (KHost.h1_arg6 (W2 m ρ c)).trans ((V2_arg6 m ρ c).trans (V1_arg6 m ρ c))
theorem V3_arg8 : V3 m ρ c main_arg8 = m ((c : Thread nD τ).loc main_arg8) := (KHost.h1_arg8 (W2 m ρ c)).trans ((V2_arg8 m ρ c).trans (V1_arg8 m ρ c))
theorem V3_arg10 : V3 m ρ c main_arg10 = m ((c : Thread nD τ).loc main_arg10) := (KHost.h1_arg10 (W2 m ρ c)).trans ((V2_arg10 m ρ c).trans (V1_arg10 m ρ c))
theorem V3_arg11 : V3 m ρ c main_arg11 = m ((c : Thread nD τ).loc main_arg11) := (KHost.h1_arg11 (W2 m ρ c)).trans ((V2_arg11 m ρ c).trans (V1_arg11 m ρ c))

/-! ## After the second call -/

/-- The second layer's output. -/
theorem V4_v42 : V4 m ρ c main_v42 = (KT.h2 (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) := by
  refine (W4_arr m ρ c 6).trans ?_
  rw [Region1.final (V3 m ρ) c, V3_v27, V3_v39, V3_arg6, V3_arg8, V3_v40, V3_v41]
  rfl

theorem V4_arg10 : V4 m ρ c main_arg10 = m ((c : Thread nD τ).loc main_arg10) := (W4_of_ne m ρ c main_arg10 (by decide)).trans (V3_arg10 m ρ c)
theorem V4_arg11 : V4 m ρ c main_arg11 = m ((c : Thread nD τ).loc main_arg11) := (W4_of_ne m ρ c main_arg11 (by decide)).trans (V3_arg11 m ρ c)

/-! ## After the third stretch of host operations -/

theorem V5_v42 : V5 m ρ c main_v42 = (KT.h2 (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) := (KHost.h2_v42 (W4 m ρ c)).trans (V4_v42 m ρ c)
theorem V5_arg10 : V5 m ρ c main_arg10 = m ((c : Thread nD τ).loc main_arg10) := (KHost.h2_arg10 (W4 m ρ c)).trans (V4_arg10 m ρ c)
theorem V5_v43 : V5 m ρ c main_v43 = KT.row40 (m ((c : Thread nD τ).loc main_arg11)) := by
  refine (KHost.h2_v43 (W4 m ρ c)).trans ?_
  rw [show W4 m ρ c (Proc.devRef .tc main_arg11) = _ from V4_arg11 m ρ c]

/-! ## After the third call: the two results -/

/-- The logits. -/
theorem W6_v44 : W6 m ρ c (Proc.devRef .tc main_v44) = (KT.logits (KT.h2 (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) := by
  refine (W6_arr m ρ c 3).trans ?_
  rw [Region2.final (V5 m ρ) c, V5_v42, V5_arg10, V5_v43]
  rfl

/-- The second layer's output is still where the second call left it: the third call only reads it. -/
theorem W6_v42 : W6 m ρ c (Proc.devRef .tc main_v42) = (KT.h2 (KT.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) :=
  (W6_arr m ρ c 0).trans ((((dat2 (V5 m ρ) c).arrAt_in 0 rfl _).trans (A_eq2 (V5 m ρ) c 0)).trans (V5_v42 m ρ c))

end Cert.KernelIdeal.KFold

end
-- ==== Proof.RefValue.lean ====
/-
  The reference's two results, read entry by entry at the ideal values: each layer of the reference is the layer of the
  specification applied to the reference's own neighbour mean, and its logits are the projection of its second layer.

  The reference adds the neighbour term first and the self term second; the specification has them the other way
  round, and addition of extended reals is commutative. Each host product is the sum over the contracted coordinate,
  and each bias broadcast reads the bias row at column b.
-/
import proofs.«171314_j89601607729378_1_alg».proof.Proof.Gen.ReferenceIdeal.Read
import proofs.«171314_j89601607729378_1_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx

/-- The reference's first layer is the layer of its neighbour mean. -/
theorem v36_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S64x32, .f32⟩ : BufTy).Contents (Elt Ideal)) (x5 : (⟨S32, .f32⟩ : BufTy).Contents (Elt Ideal)) :
    val_main_v36 (F := Ideal) x0 x1 x2 x3 x4 x5
      = Cert.Sage.conv (N := 100000) (K := 64) (J := 32) x0 (val_main_v30 (F := Ideal) x0 x1) x2 x4
          (val_main_v9 (F := Ideal) x3) (val_main_v32 (F := Ideal) x5) := by
  funext i
  obtain ⟨a, b, rfl⟩ : ∃ (a : Fin 100000) (b : Fin 32), i = ix2 a b := ⟨i 0, i 1, eq_ix2 i⟩
  -- Both sides at the entry (a, b): the layer's formula on the right, the reference's operations on the left.
  rw [Cert.Sage.conv_apply]
  rw [val_main_v36_apply, val_main_v35_apply, val_main_v34_apply, val_main_v31_apply, val_main_v33_apply,
    val_main_v11_apply, val_main_v8_apply, val_main_v10_apply, val_main_call0_v0_apply, val_main_call0_cst_apply]
  -- Each product reads its left factor at (a, k) and its right factor at (k, b); each bias row is read at (0, b).
  have hl31 : ∀ k : Fin 64, lidx_main_v31 (ix2 a b) k = ix2 a k := fun k =>
    funext fun ax => Fin.ext (by match ax with | ⟨0, _⟩ => rfl | ⟨1, _⟩ => rfl)
  have hr31 : ∀ k : Fin 64, ridx_main_v31 (ix2 a b) k = ix2 k b := fun k =>
    funext fun ax => Fin.ext (by match ax with | ⟨0, _⟩ => rfl | ⟨1, _⟩ => rfl)
  have hl8 : ∀ k : Fin 64, lidx_main_v8 (ix2 a b) k = ix2 a k := fun k =>
    funext fun ax => Fin.ext (by match ax with | ⟨0, _⟩ => rfl | ⟨1, _⟩ => rfl)
  have hr8 : ∀ k : Fin 64, ridx_main_v8 (ix2 a b) k = ix2 k b := fun k =>
    funext fun ax => Fin.ext (by match ax with | ⟨0, _⟩ => rfl | ⟨1, _⟩ => rfl)
  have h33 : idx_main_v33 (ix2 a b) = ix2 0 b :=
    funext fun ax => Fin.ext (by match ax with | ⟨0, _⟩ => rfl | ⟨1, _⟩ => rfl)
  have h10 : idx_main_v10 (ix2 a b) = ix2 0 b :=
    funext fun ax => Fin.ext (by match ax with | ⟨0, _⟩ => rfl | ⟨1, _⟩ => rfl)
  simp only [hl31, hr31, hl8, hr8, h33, h10, Ideal.maximumf_def, Ideal.addf_def, Ideal.ofBits_def,
    Ideal.ofBits_zero_f32]
  -- The neighbour term and the self term stand in the other order; addition commutes.
  rw [add_comm]

/-- The reference's second layer is the layer of the first layer's output and of its neighbour mean. -/
theorem v65_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) :
    val_main_v65 (F := Ideal) x0 x1 x2 x3 x4 x5 x6 x7 x8 x9
      = Cert.Sage.conv (N := 100000) (K := 32) (J := 32) (val_main_v36 (F := Ideal) x0 x1 x2 x3 x4 x5)
          (val_main_v59 (F := Ideal) x0 x1 x2 x3 x4 x5) x6 x8 (val_main_v38 (F := Ideal) x7) (val_main_v61 (F := Ideal) x9) := by
  funext i
  obtain ⟨a, b, rfl⟩ : ∃ (a : Fin 100000) (b : Fin 32), i = ix2 a b := ⟨i 0, i 1, eq_ix2 i⟩
  -- Both sides at the entry (a, b), as in the first layer, over the first layer's output and its neighbour mean.
  rw [Cert.Sage.conv_apply]
  rw [val_main_v65_apply, val_main_v64_apply, val_main_v63_apply, val_main_v60_apply, val_main_v62_apply,
    val_main_v40_apply, val_main_v37_apply, val_main_v39_apply, val_main_call1_v0_apply, val_main_call1_cst_apply]
  have hl60 : ∀ k : Fin 32, lidx_main_v60 (ix2 a b) k = ix2 a k := fun k =>
    funext fun ax => Fin.ext (by match ax with | ⟨0, _⟩ => rfl | ⟨1, _⟩ => rfl)
  have hr60 : ∀ k : Fin 32, ridx_main_v60 (ix2 a b) k = ix2 k b := fun k =>
    funext fun ax => Fin.ext (by match ax with | ⟨0, _⟩ => rfl | ⟨1, _⟩ => rfl)
  have hl37 : ∀ k : Fin 32, lidx_main_v37 (ix2 a b) k = ix2 a k := fun k =>
    funext fun ax => Fin.ext (by match ax with | ⟨0, _⟩ => rfl | ⟨1, _⟩ => rfl)
  have hr37 : ∀ k : Fin 32, ridx_main_v37 (ix2 a b) k = ix2 k b := fun k =>
    funext fun ax => Fin.ext (by match ax with | ⟨0, _⟩ => rfl | ⟨1, _⟩ => rfl)
  have h62 : idx_main_v62 (ix2 a b) = ix2 0 b :=
    funext fun ax => Fin.ext (by match ax with | ⟨0, _⟩ => rfl | ⟨1, _⟩ => rfl)
  have h39 : idx_main_v39 (ix2 a b) = ix2 0 b :=
    funext fun ax => Fin.ext (by match ax with | ⟨0, _⟩ => rfl | ⟨1, _⟩ => rfl)
  simp only [hl60, hr60, hl37, hr37, h62, h39, Ideal.maximumf_def, Ideal.addf_def, Ideal.ofBits_def,
    Ideal.ofBits_zero_f32]
  -- Again the two terms stand in the other order; addition commutes.
  rw [add_comm]

/-- The reference's logits are the projection of its second layer's output. -/
theorem v69_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x40, .f32⟩ : BufTy).Contents (Elt Ideal)) (x11 : (⟨S40, .f32⟩ : BufTy).Contents (Elt Ideal)) :
    val_main_v69 (F := Ideal) x0 x1 x2 x3 x4 x5 x6 x7 x8 x9 x10 x11
      = Cert.Sage.proj (N := 100000) (K := 32) (J := 40) (val_main_v65 (F := Ideal) x0 x1 x2 x3 x4 x5 x6 x7 x8 x9) x10
          (val_main_v67 (F := Ideal) x11) := by
  funext i
  obtain ⟨a, q, rfl⟩ : ∃ (a : Fin 100000) (q : Fin 40), i = ix2 a q := ⟨i 0, i 1, eq_ix2 i⟩
  -- Both sides at the entry (a, q): the sum over the contracted coordinate plus the bias row at column q.
  rw [Cert.Sage.proj_apply]
  rw [val_main_v69_apply, val_main_v66_apply, val_main_v68_apply]
  have hl66 : ∀ k : Fin 32, lidx_main_v66 (ix2 a q) k = ix2 a k := fun k =>
    funext fun ax => Fin.ext (by match ax with | ⟨0, _⟩ => rfl | ⟨1, _⟩ => rfl)
  have hr66 : ∀ k : Fin 32, ridx_main_v66 (ix2 a q) k = ix2 k q := fun k =>
    funext fun ax => Fin.ext (by match ax with | ⟨0, _⟩ => rfl | ⟨1, _⟩ => rfl)
  have h68 : idx_main_v68 (ix2 a q) = ix2 0 q :=
    funext fun ax => Fin.ext (by match ax with | ⟨0, _⟩ => rfl | ⟨1, _⟩ => rfl)
  simp only [hl66, hr66, h68, Ideal.addf_def]

end Cert.ReferenceIdeal.RefValue

end
-- ==== Proof.BridgeNbr.lean ====
/-
  The two programs' neighbour means are one array, and their bias rows are one row.

  The kernel's program multiplies the neighbour sums by the column 1 / max(cnt, 1); the reference divides them by
  max(cnt, 1) broadcast. The sums and the in-degree cnt are the same host terms of the same arrays in both programs
  (the same gather at the same wrapped source ids, the same scatter-adds at the same destination ids), and at every
  entry x · (1 / max(c, 1)) = x / max(c, 1) on the extended reals. A bias [n] reshaped to [1, n] and the same bias
  broadcast to [1, n] both read the bias at the column.
-/
import proofs.«171314_j89601607729378_1_alg».proof.Proof.KTerms
import proofs.«171314_j89601607729378_1_alg».proof.Proof.Gen.ReferenceIdeal.Read
import proofs.«171314_j89601607729378_1_alg».proof.Proof.Spec
import Idealize.ShloMosaic.Lib.ValueLayout

noncomputable section

namespace Cert.Bridge

open Idealize.ShloMosaic Idealize.ShloMosaic.ValueIdx
open Cert.KernelIdeal (KT.nbr64 KT.nbr32 KT.srcIds KT.dstIds KT.invDeg KT.row32 KT.row40)

/-! ### Layout reads over literal shapes -/

/-- A vector [n] set up as a column [n, 1] reads, at (a, u), the vector at a. -/
theorem col_apply {α : Type} {n : Nat} (hn : n ≠ 1)
    (h : (⟨1, ![n]⟩ : Shape).BroadcastsInDim ⟨2, ![n, 1]⟩ ![0]) (y : (⟨1, ![n]⟩ : Shape).Idx → α)
    (a : Fin n) (u : Fin 1) :
    broadcastInDim ⟨2, ![n, 1]⟩ ![0] h y (ix2 a u) = y (ix1 a) :=
  broadcastInDim_apply _ h y (ix2 a u) (ix1 a) (fun ax => match ax with
    | ⟨0, _⟩ => by show a.val = if n = 1 then 0 else a.val; rw [if_neg hn])

/-- A column [n, 1] repeated along m features reads, at (a, b), the column at (a, 0). -/
theorem colBcast_apply {α : Type} {n m : Nat} (hn : n ≠ 1)
    (h : (⟨2, ![n, 1]⟩ : Shape).BroadcastsInDim ⟨2, ![n, m]⟩ ![0, 1]) (y : (⟨2, ![n, 1]⟩ : Shape).Idx → α)
    (a : Fin n) (b : Fin m) :
    broadcastInDim ⟨2, ![n, m]⟩ ![0, 1] h y (ix2 a b) = y (ix2 a (0 : Fin 1)) :=
  broadcastInDim_apply _ h y (ix2 a b) (ix2 a (0 : Fin 1)) (fun ax => match ax with
    | ⟨0, _⟩ => by show a.val = if n = 1 then 0 else a.val; rw [if_neg hn]
    | ⟨1, _⟩ => by show 0 = if (1 : Nat) = 1 then 0 else b.val; rw [if_pos rfl])

/-- A vector [n] reshaped to the row [1, n] is the vector broadcast to [1, n] along the columns: both read the
    vector at the column. -/
theorem reshape_eq_bcast {α : Type} {n : Nat} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply]
  exact (broadcastInDim_apply _ hb v (ix2 u q) (ix1 q) (fun ax => match ax with
    | ⟨0, _⟩ => by show q.val = if n = 1 then 0 else q.val; rw [if_neg hn])).symm

/-! ### The mean: times the reciprocal column = divided by the clipped count -/

/-- The host's quotient of two arrays, at an index, is the quotient of the entries. -/
theorem hostDivf_apply {s : Shape} (x y : FVec Ideal s .f32) (i : s.Idx) :
    Host.divf x y i = Ideal.div (x i) (y i) := rfl

/-- Over any sums S [n, m] and counts cnt [n]: S times the column 1 / max(cnt, 1) repeated along the features is
    S divided by max(cnt, 1) set up as a column and repeated along the features. At the entry (a, b) both sides read
    S(a, b) and cnt(a), and x · (1 / max(c, 1)) = x / max(c, 1). -/
theorem mean_eq {n m : Nat} (hn : n ≠ 1)
    (hz : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, m]⟩ ![0, 1])
    (S : FVec Ideal ⟨2, ![n, m]⟩ .f32) (cnt : FVec Ideal ⟨1, ![n]⟩ .f32) :
    mulf S (broadcastInDim ⟨2, ![n, m]⟩ ![0, 1] h2 (broadcastInDim ⟨2, ![n, 1]⟩ ![0] h1
        (Host.divf (broadcastInDim ⟨1, ![n]⟩ ![] hz (constant ⟨0, ![]⟩ .f32 0x3F800000#32))
          (maximumf cnt (broadcastInDim ⟨1, ![n]⟩ ![] hz (constant ⟨0, ![]⟩ .f32 0x3F800000#32))))))
      = Host.divf S (broadcastInDim ⟨2, ![n, m]⟩ ![0, 1] h2 (broadcastInDim ⟨2, ![n, 1]⟩ ![0] h1
          (maximumf cnt (broadcastInDim ⟨1, ![n]⟩ ![] hz (constant ⟨0, ![]⟩ .f32 0x3F800000#32))))) := by
  funext i
  obtain ⟨a, b, rfl⟩ : ∃ (a : Fin n) (b : Fin m), i = ix2 a b := ⟨i 0, i 1, eq_ix2 i⟩
  rw [mulf_apply, hostDivf_apply, colBcast_apply hn h2, colBcast_apply hn h2, col_apply hn h1, col_apply hn h1]
  exact Cert.Sage.mul_recip_clip (S (ix2 a b)) (cnt (ix1 a))

/-! ### The two programs' sums and in-degrees are the same terms -/

/-- The first layer's neighbour sums: the same gather at the same wrapped source ids, scatter-added at the same
    destination ids. -/
theorem agg64_eq (x0 : (⟨Cert.KernelIdeal.S100000x64, .f32⟩ : BufTy).Contents (Elt Ideal)) (x1 : (⟨Cert.KernelIdeal.S2x1600000, .i32⟩ : BufTy).Contents (Elt Ideal)) :
    Cert.KernelIdeal.KT.agg64 (F := Ideal) x0 (Cert.KernelIdeal.KT.srcIds x1) (Cert.KernelIdeal.KT.dstIds x1)
      = Cert.ReferenceIdeal.Read.val_main_v21 (F := Ideal) x0 x1 := rfl

/-- The in-degree, as the first layer's reference computes it. -/
theorem inDeg_eq (x1 : (⟨Cert.KernelIdeal.S2x1600000, .i32⟩ : BufTy).Contents (Elt Ideal)) :
    Cert.KernelIdeal.KT.inDeg (F := Ideal) (Cert.KernelIdeal.KT.dstIds x1)
      = Cert.ReferenceIdeal.Read.val_main_v25 (F := Ideal) x1 := rfl

/-- The second layer's neighbour sums, of any 32-feature array. -/
theorem agg32_eq (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S64x32, .f32⟩ : BufTy).Contents (Elt Ideal)) (x3 : (⟨Cert.KernelIdeal.S32, .f32⟩ : BufTy).Contents (Elt Ideal)) (x4 : (⟨Cert.KernelIdeal.S64x32, .f32⟩ : BufTy).Contents (Elt Ideal)) (x5 : (⟨Cert.KernelIdeal.S32, .f32⟩ : BufTy).Contents (Elt Ideal)) :
    Cert.KernelIdeal.KT.agg32 (F := Ideal) (Cert.ReferenceIdeal.Read.val_main_v36 (F := Ideal) x0 x1 x2 x3 x4 x5)
        (Cert.KernelIdeal.KT.srcIds x1) (Cert.KernelIdeal.KT.dstIds x1)
      = Cert.ReferenceIdeal.Read.val_main_v50 (F := Ideal) x0 x1 x2 x3 x4 x5 := rfl

/-- The in-degree, as the second layer's reference computes it again. -/
theorem inDeg_eq' (x1 : (⟨Cert.KernelIdeal.S2x1600000, .i32⟩ : BufTy).Contents (Elt Ideal)) :
    Cert.KernelIdeal.KT.inDeg (F := Ideal) (Cert.KernelIdeal.KT.dstIds x1)
      = Cert.ReferenceIdeal.Read.val_main_v54 (F := Ideal) x1 := rfl

/-- The first layer's neighbour mean. -/
theorem nbr64_eq (x0 : (⟨Cert.KernelIdeal.S100000x64, .f32⟩ : BufTy).Contents (Elt Ideal)) (x1 : (⟨Cert.KernelIdeal.S2x1600000, .i32⟩ : BufTy).Contents (Elt Ideal)) :
    Cert.KernelIdeal.KT.nbr64 (F := Ideal) x0 (Cert.KernelIdeal.KT.srcIds x1) (Cert.KernelIdeal.KT.dstIds x1)
        (Cert.KernelIdeal.KT.invDeg (Cert.KernelIdeal.KT.dstIds x1))
      = Cert.ReferenceIdeal.Read.val_main_v30 (F := Ideal) x0 x1 := by
  unfold Cert.KernelIdeal.KT.nbr64 Cert.KernelIdeal.KT.invDeg
  rw [agg64_eq x0 x1, inDeg_eq x1]
  exact mean_eq (n := 100000) (m := 64) (by decide) _ _ _
    (Cert.ReferenceIdeal.Read.val_main_v21 (F := Ideal) x0 x1) (Cert.ReferenceIdeal.Read.val_main_v25 (F := Ideal) x1)

/-- The second layer's neighbour mean, of the reference's first layer. -/
theorem nbr32_eq (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S64x32, .f32⟩ : BufTy).Contents (Elt Ideal)) (x3 : (⟨Cert.KernelIdeal.S32, .f32⟩ : BufTy).Contents (Elt Ideal)) (x4 : (⟨Cert.KernelIdeal.S64x32, .f32⟩ : BufTy).Contents (Elt Ideal)) (x5 : (⟨Cert.KernelIdeal.S32, .f32⟩ : BufTy).Contents (Elt Ideal)) :
    Cert.KernelIdeal.KT.nbr32 (F := Ideal) (Cert.ReferenceIdeal.Read.val_main_v36 (F := Ideal) x0 x1 x2 x3 x4 x5)
        (Cert.KernelIdeal.KT.srcIds x1) (Cert.KernelIdeal.KT.dstIds x1) (Cert.KernelIdeal.KT.invDeg (Cert.KernelIdeal.KT.dstIds x1))
      = Cert.ReferenceIdeal.Read.val_main_v59 (F := Ideal) x0 x1 x2 x3 x4 x5 := by
  unfold Cert.KernelIdeal.KT.nbr32 Cert.KernelIdeal.KT.invDeg
  rw [agg32_eq x0 x1 x2 x3 x4 x5, inDeg_eq' x1]
  exact mean_eq (n := 100000) (m := 32) (by decide) _ _ _
    (Cert.ReferenceIdeal.Read.val_main_v50 (F := Ideal) x0 x1 x2 x3 x4 x5) (Cert.ReferenceIdeal.Read.val_main_v54 (F := Ideal) x1)

/-- The bias rows. -/
theorem row32_v9 (b : (⟨Cert.KernelIdeal.S32, .f32⟩ : BufTy).Contents (Elt Ideal)) : Cert.KernelIdeal.KT.row32 (F := Ideal) b = Cert.ReferenceIdeal.Read.val_main_v9 (F := Ideal) b := by
  exact reshape_eq_bcast (n := 32) (by decide) b _ _
theorem row32_v32 (b : (⟨Cert.KernelIdeal.S32, .f32⟩ : BufTy).Contents (Elt Ideal)) : Cert.KernelIdeal.KT.row32 (F := Ideal) b = Cert.ReferenceIdeal.Read.val_main_v32 (F := Ideal) b := by
  exact reshape_eq_bcast (n := 32) (by decide) b _ _
theorem row32_v38 (b : (⟨Cert.KernelIdeal.S32, .f32⟩ : BufTy).Contents (Elt Ideal)) : Cert.KernelIdeal.KT.row32 (F := Ideal) b = Cert.ReferenceIdeal.Read.val_main_v38 (F := Ideal) b := by
  exact reshape_eq_bcast (n := 32) (by decide) b _ _
theorem row32_v61 (b : (⟨Cert.KernelIdeal.S32, .f32⟩ : BufTy).Contents (Elt Ideal)) : Cert.KernelIdeal.KT.row32 (F := Ideal) b = Cert.ReferenceIdeal.Read.val_main_v61 (F := Ideal) b := by
  exact reshape_eq_bcast (n := 32) (by decide) b _ _
theorem row40_v67 (b : (⟨Cert.KernelIdeal.S40, .f32⟩ : BufTy).Contents (Elt Ideal)) : Cert.KernelIdeal.KT.row40 (F := Ideal) b = Cert.ReferenceIdeal.Read.val_main_v67 (F := Ideal) b := by
  exact reshape_eq_bcast (n := 40) (by decide) b _ _

end Cert.Bridge

end
-- ==== Proof.Bridge.lean ====
/-
  The kernel program's three arrays are the reference's.

  Layer by layer: the two programs' neighbour means are one array and their bias rows one row, so the first layer's
  output h1 is the reference's; the second layer is the same function of h1 in both, so h2 is the reference's; and
  the logits are the same projection of h2.
-/
import proofs.«171314_j89601607729378_1_alg».proof.Proof.KTerms
import proofs.«171314_j89601607729378_1_alg».proof.Proof.RefValue
import proofs.«171314_j89601607729378_1_alg».proof.Proof.BridgeNbr

noncomputable section

namespace Cert.Bridge

open Idealize.ShloMosaic
open Cert.KernelIdeal (KT.h1 KT.h2 KT.logits)

/-- The first layer. -/
theorem h1_eq (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S64x32, .f32⟩ : BufTy).Contents (Elt Ideal)) (x3 : (⟨Cert.KernelIdeal.S32, .f32⟩ : BufTy).Contents (Elt Ideal)) (x4 : (⟨Cert.KernelIdeal.S64x32, .f32⟩ : BufTy).Contents (Elt Ideal)) (x5 : (⟨Cert.KernelIdeal.S32, .f32⟩ : BufTy).Contents (Elt Ideal)) :
    Cert.KernelIdeal.KT.h1 x0 x1 x2 x3 x4 x5 = Cert.ReferenceIdeal.Read.val_main_v36 (F := Ideal) x0 x1 x2 x3 x4 x5 := by
  unfold Cert.KernelIdeal.KT.h1
  rw [nbr64_eq, row32_v9 x3, row32_v32 x5]
  exact (Cert.ReferenceIdeal.RefValue.v36_eq x0 x1 x2 x3 x4 x5).symm

/-- The second layer. -/
theorem h2_eq (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S64x32, .f32⟩ : BufTy).Contents (Elt Ideal)) (x3 : (⟨Cert.KernelIdeal.S32, .f32⟩ : BufTy).Contents (Elt Ideal)) (x4 : (⟨Cert.KernelIdeal.S64x32, .f32⟩ : BufTy).Contents (Elt Ideal)) (x5 : (⟨Cert.KernelIdeal.S32, .f32⟩ : BufTy).Contents (Elt Ideal)) (x6 : (⟨Cert.KernelIdeal.S32x32, .f32⟩ : BufTy).Contents (Elt Ideal)) (x7 : (⟨Cert.KernelIdeal.S32, .f32⟩ : BufTy).Contents (Elt Ideal)) (x8 : (⟨Cert.KernelIdeal.S32x32, .f32⟩ : BufTy).Contents (Elt Ideal)) (x9 : (⟨Cert.KernelIdeal.S32, .f32⟩ : BufTy).Contents (Elt Ideal)) :
    Cert.KernelIdeal.KT.h2 (Cert.KernelIdeal.KT.h1 x0 x1 x2 x3 x4 x5) x1 x6 x7 x8 x9
      = Cert.ReferenceIdeal.Read.val_main_v65 (F := Ideal) x0 x1 x2 x3 x4 x5 x6 x7 x8 x9 := by
  rw [h1_eq]
  unfold Cert.KernelIdeal.KT.h2
  rw [nbr32_eq, row32_v38 x7, row32_v61 x9]
  exact (Cert.ReferenceIdeal.RefValue.v65_eq x0 x1 x2 x3 x4 x5 x6 x7 x8 x9).symm

/-- The logits. -/
theorem logits_eq (x0 : (⟨Cert.KernelIdeal.S100000x64, .f32⟩ : BufTy).Contents (Elt Ideal)) (x1 : (⟨Cert.KernelIdeal.S2x1600000, .i32⟩ : BufTy).Contents (Elt Ideal)) (x2 : (⟨Cert.KernelIdeal.S64x32, .f32⟩ : BufTy).Contents (Elt Ideal)) (x3 : (⟨Cert.KernelIdeal.S32, .f32⟩ : BufTy).Contents (Elt Ideal)) (x4 : (⟨Cert.KernelIdeal.S64x32, .f32⟩ : BufTy).Contents (Elt Ideal)) (x5 : (⟨Cert.KernelIdeal.S32, .f32⟩ : BufTy).Contents (Elt Ideal)) (x6 : (⟨Cert.KernelIdeal.S32x32, .f32⟩ : BufTy).Contents (Elt Ideal)) (x7 : (⟨Cert.KernelIdeal.S32, .f32⟩ : BufTy).Contents (Elt Ideal)) (x8 : (⟨Cert.KernelIdeal.S32x32, .f32⟩ : BufTy).Contents (Elt Ideal)) (x9 : (⟨Cert.KernelIdeal.S32, .f32⟩ : BufTy).Contents (Elt Ideal)) (x10 : (⟨Cert.KernelIdeal.S32x40, .f32⟩ : BufTy).Contents (Elt Ideal)) (x11 : (⟨Cert.KernelIdeal.S40, .f32⟩ : BufTy).Contents (Elt Ideal)) :
    Cert.KernelIdeal.KT.logits (Cert.KernelIdeal.KT.h2 (Cert.KernelIdeal.KT.h1 x0 x1 x2 x3 x4 x5) x1 x6 x7 x8 x9) x10 x11
      = Cert.ReferenceIdeal.Read.val_main_v69 (F := Ideal) x0 x1 x2 x3 x4 x5 x6 x7 x8 x9 x10 x11 := by
  rw [h2_eq]
  unfold Cert.KernelIdeal.KT.logits
  rw [row40_v67 x11]
  exact (Cert.ReferenceIdeal.RefValue.v69_eq x0 x1 x2 x3 x4 x5 x6 x7 x8 x9 x10 x11).symm

end Cert.Bridge

end
-- ==== Proof.lean ====
/-
  A two-layer graph convolution with mean aggregation and an output projection, tiled over node blocks, against its
  plain array reference: the two programs compute the same two arrays over the extended reals.

  Both programs gather the neighbour rows at the source ids and scatter-add them at the destination ids with the same
  host operations; the tiled program then multiplies the sums by 1 / max(cnt, 1) where the reference divides by
  max(cnt, 1), which agree at every extended real because max(cnt, 1) is never zero. Each layer,
  max((h·Ws + bs) + (mean·Wn + bn), 0), is computed by the tiled program 5000 rows at a time with its matrix products
  into zero accumulators, and by the reference on whole arrays with the two terms added in the other order; a product
  into a zero accumulator and a host product are the same sum over the contracted coordinate, the casts to a shorter
  float format are the identity on the extended reals, and the 20 row blocks cover the 100000 rows. The logits are the
  same projection of the second layer's output.

  The three frames are the generated ones (the reference's is its run with the results dropped); the idealized kernel
  program has no ledger entry, so nothing is owed for it beyond its frame.
-/
import proofs.«171314_j89601607729378_1_alg».proof.Defs
import proofs.«171314_j89601607729378_1_alg».proof.Proof.Gen.Kernel
import proofs.«171314_j89601607729378_1_alg».proof.Proof.Gen.Kernel.Skeleton
import proofs.«171314_j89601607729378_1_alg».proof.Proof.Gen.Kernel.Launch
import proofs.«171314_j89601607729378_1_alg».proof.Proof.Gen.Kernel.Points
import proofs.«171314_j89601607729378_1_alg».proof.Proof.Gen.Kernel.Frame
import proofs.«171314_j89601607729378_1_alg».proof.Proof.Gen.KernelIdeal
import proofs.«171314_j89601607729378_1_alg».proof.Proof.Gen.KernelIdeal.Skeleton
import proofs.«171314_j89601607729378_1_alg».proof.Proof.Gen.KernelIdeal.Launch
import proofs.«171314_j89601607729378_1_alg».proof.Proof.Gen.KernelIdeal.Points
import proofs.«171314_j89601607729378_1_alg».proof.Proof.Gen.KernelIdeal.Frame
import proofs.«171314_j89601607729378_1_alg».proof.Proof.Gen.ReferenceIdeal
import proofs.«171314_j89601607729378_1_alg».proof.Proof.Gen.ReferenceIdeal.Run
import proofs.«171314_j89601607729378_1_alg».proof.Proof.Gen.ReferenceIdeal.Read
import proofs.«171314_j89601607729378_1_alg».proof.Proof.Gen.Pre_finite_inputs
import proofs.«171314_j89601607729378_1_alg».proof.Proof.KRun
import proofs.«171314_j89601607729378_1_alg».proof.Proof.KFold
import proofs.«171314_j89601607729378_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the arguments, the tiled program ends with the second layer's output and the logits
    where the reference ends with its own: the same two arrays. -/
theorem algebraic : Cert.algebraic_KernelIdeal_ReferenceIdeal := by
  intro m ρ m' ρ' _ hagree
  refine ⟨fun c => Cert.KernelIdeal.Gen.W6 m ρ c (Proc.devRef .tc Cert.KernelIdeal.main_v42),
    fun c => Cert.KernelIdeal.Gen.W6 m ρ c (Proc.devRef .tc Cert.KernelIdeal.main_v44),
    Cert.KernelIdeal.KRun.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, -⟩ := hagree c
    rw [Cert.ReferenceIdeal.Read.val_main_v65_eq, e0, e1, e2, e3, e4, e5, e6, e7, e8, e9]
    exact ((Cert.KernelIdeal.KFold.W6_v42 m ρ c).trans
      (Cert.Bridge.h2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))).symm
  · obtain ⟨e0, e1, e2, e3, e4, e5, e6, e7, e8, e9, e10, e11, -⟩ := hagree c
    rw [Cert.ReferenceIdeal.Read.val_main_v69_eq, e0, e1, e2, e3, e4, e5, e6, e7, e8, e9, e10, e11]
    exact ((Cert.KernelIdeal.KFold.W6_v44 m ρ c).trans
      (Cert.Bridge.logits_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
